-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S256x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S128x1x256 : Shape := ⟨3, ![128, 1, 256]⟩
abbrev S1x256x256 : Shape := ⟨3, ![1, 256, 256]⟩
abbrev S128x256x256 : Shape := ⟨3, ![128, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S256x256, .f32⟩
  | .local _ .vmem, ⟨3, _⟩ => ⟨S1x256, .f32⟩
  | .local _ .vmem, ⟨4, _⟩ => ⟨S128x256, .f32⟩
  | .local _ .vmem, ⟨5, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S128x256_S128x1x256 : S128x256.ShapeCasts S128x1x256
  shapeCasts_S256x256_S1x256x256 : S256x256.ShapeCasts S1x256x256
  broadcasts_S128x1x256_S128x256x256 : S128x1x256.Broadcasts S128x256x256
  broadcasts_S1x256x256_S128x256x256 : S1x256x256.Broadcasts S128x256x256
  reduces_S128x256x256_S128x256 : S128x256x256.Reduces [2] S128x256
  broadcasts_S1x256_S128x256 : S1x256.Broadcasts S128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S4096x256.size a
  hwx0_3 : ∀ i : grid0.Coords, EltTy.bits .f32 = 32 ∨ (Rect.block (s := S4096x256) S128x256.size (cc0_transform_3 i) (hinb0_3 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S4096x1x256 : Shape := ⟨3, ![4096, 1, 256]⟩
abbrev S1x256x256 : Shape := ⟨3, ![1, 256, 256]⟩
abbrev S4096x256x256 : Shape := ⟨3, ![4096, 256, 256]⟩
abbrev S_ : Shape := ⟨0, ![]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S4096x1x256, .f32⟩
  | .hbm, ⟨4, _⟩ => ⟨S1x256x256, .f32⟩
  | .hbm, ⟨5, _⟩ => ⟨S4096x256x256, .f32⟩
  | .hbm, ⟨6, _⟩ => ⟨S4096x256x256, .f32⟩
  | .hbm, ⟨7, _⟩ => ⟨S4096x256x256, .f32⟩
  | .hbm, ⟨8, _⟩ => ⟨S_, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096x256_S4096x1x256_0_2 : S4096x256.BroadcastsInDim S4096x1x256 (![0, 2] : Fin 2 → Fin S4096x1x256.rank)
  bcast_S256x256_S1x256x256_1_2 : S256x256.BroadcastsInDim S1x256x256 (![1, 2] : Fin 2 → Fin S1x256x256.rank)
  bcast_S4096x1x256_S4096x256x256_0_1_2 : S4096x1x256.BroadcastsInDim S4096x256x256 (![0, 1, 2] : Fin 3 → Fin S4096x256x256.rank)
  bcast_S1x256x256_S4096x256x256_0_1_2 : S1x256x256.BroadcastsInDim S4096x256x256 (![0, 1, 2] : Fin 3 → Fin S4096x256x256.rank)
  reducesTo_S4096x256x256_S4096x256_d2 : S4096x256x256.ReducesTo [2] S4096x256
  h_S_ : 0 < S_.numel
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)

variable [Facts₀]

class Facts : Prop extends Facts₀ where

variable [Facts]
-- ==== Proof.LibLayoutRank3.lean ====
/-
  Three layout operations of rank 3 read at an index written by coordinates, in the style of the library's
  rank-2 forms: a middle unit axis added by a shape cast, and a unit axis (the middle one, or the leading one)
  broadcast to its full extent. Each says which element of the operand an element of the result is.
-/
import Idealize.ShloMosaic.Lib.ValueLayout

namespace Idealize.ShloMosaic.ValueIdx

open Idealize.ShloMosaic

variable {α : Type}

/-- An `[a, b]` array cast to `[a, 1, b]` reads, at `(i, u, j)`, the operand at `(i, j)`: both indices have the
    row-major position `i * b + j`, the unit coordinate contributing nothing. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, q, j)`, the operand at `(i, 0, j)`: the middle
    coordinate is forgotten. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (q : Fin c) (j : Fin b) :
    broadcastTo ⟨3, ![a, c, b]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, q, j)`, the operand at `(0, q, j)`: the leading
    coordinate is forgotten. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (q : Fin c) (j : Fin b) :
    broadcastTo ⟨3, ![a, c, b]⟩ v h (ix3 i q j) = v (ix3 (0 : Fin 1) q j) := by
  refine broadcastTo_apply v h (ix3 i q j) (ix3 (0 : Fin 1) q j) fun ax => ?_
  match ax with
  | ⟨0, _⟩ => rfl
  | ⟨1, _⟩ =>
    show q.val = if c = 1 then 0 else q.val
    split
    · have := q.isLt; omega
    · rfl
  | ⟨2, _⟩ =>
    show j.val = if b = 1 then 0 else j.val
    split
    · have := j.isLt; omega
    · rfl

end Idealize.ShloMosaic.ValueIdx
-- ==== Proof.MaxPlus.lean ====
/-
  The tropical (max-plus) product with a bias, over the extended reals:

      y[n, o] = max_k (x[n, k] + a[o, k]) + bias[o]      (n < 4096, o < 256, k < 256),

  the maximum taken from −∞, the value of the f32 word 0xFF800000 that both programs start their reduction
  from. The word is kept as a word: both sides carry the same one, so it is never evaluated. Both the kernel's
  block and the reference's array are shown to be this one function of the three argument arrays, index by index;
  no law of the extended reals is needed, only that a maximum over one axis is the fold of `max` over that axis's
  coordinates in any order.
-/
import Idealize.ShloMosaic.PureOps.Ideal.Laws
import Idealize.ShloMosaic.Lib.ValueIdx

noncomputable section

namespace Cert.MaxPlus

open Idealize.ShloMosaic Idealize.ShloMosaic.ValueIdx

/-- The maximum, from −∞, over the 256 contracted coordinates of the sum of a row of `x` and a row of `a`. -/
def rowMax (u v : Fin 256 → EReal) : EReal :=
  (Finset.univ : Finset (Fin 256)).fold max (Ideal.ofBits .f32 0xFF800000#32) (fun k => u k + v k)

/-- The whole result: entry `(n, o)` is the row maximum of row `n` of `x` against row `o` of `a`, plus `bias[o]`. -/
def maxPlus (x : (⟨2, ![4096, 256]⟩ : Shape).Idx → EReal) (a : (⟨2, ![256, 256]⟩ : Shape).Idx → EReal)
    (bias : (⟨1, ![256]⟩ : Shape).Idx → EReal) : (⟨2, ![4096, 256]⟩ : Shape).Idx → EReal :=
  fun i => rowMax (fun k => x (ix2 (i 0) k)) (fun k => a (ix2 (i 1) k)) + bias (ix1 (i 1))

end Cert.MaxPlus

end
-- ==== Proof.KernelValue.lean ====
/-
  The kernel's result array is the max-plus product with bias.

  The grid has 32 points; point t loads rows 128·t … 128·t + 127 of `x`, all of `a` and the bias as one row, and
  stores a [128, 256] block: at (p, q) the maximum over k, from −∞, of `x[128·t + p, k] + a[q, k]`, plus `bias[q]`.
  The body reaches this by two shape casts that add a unit axis, two broadcasts to [128, 256, 256], a sum, a maximum
  over the last axis and a one-row broadcast of the bias; each layout operation is read at an index, and the maximum
  over one axis is the fold of `max` over that axis's coordinates. The 32 stored blocks are row blocks of ONE function
  of the argument arrays, and they tile the [4096, 256] result, so the result array ends holding that function.
-/
import proofs.«155381_j13099650252927_1_alg».proof.Proof.KernelIdealValue
import proofs.«155381_j13099650252927_1_alg».proof.Proof.LibLayoutRank3
import proofs.«155381_j13099650252927_1_alg».proof.Proof.MaxPlus
import Idealize.ShloMosaic.PureOps.Ideal.Laws
import Idealize.ShloMosaic.Lib.ValueIdx
import Idealize.ShloMosaic.Lib.ValueLayout
import Idealize.ShloMosaic.Lib.StableHlo.Run
import Idealize.ShloMosaic.Lib.Pipeline.Value

noncomputable section

namespace Cert.KernelIdeal.KernelValue

open Cert.KernelIdeal Cert.KernelIdeal.Gen Cert.KernelIdeal.ValueP
open Idealize.ShloMosaic Idealize.ShloMosaic.TcCoe Idealize.SL.Sem Idealize.ShloMosaic.ValueIdx Cert.MaxPlus
open Idealize.ShloMosaic.Pipeline (Dat)

variable (m : (ℓ : Loc nD τ sig) → Buf (Elt Ideal) ℓ) (ρ : Dev nD → PrngReg)

/-! ## One block of the body, at an index -/

theorem hz : (![0, 0] : Fin 2 → Nat) = fun _ => 0 :=
  funext fun a => by match a with | ⟨0, _⟩ => rfl | ⟨1, _⟩ => rfl

/-- Inserting the coordinate `k` on the reduced axis of `(p, q)` gives `(p, q, k)`. -/
theorem lift_eq (p : Fin 128) (q : Fin 256) (k : Fin 256) :
    reduces_S128x256x256_S128x256.lift (ix2 p q) k = ix3 p q k :=
  funext fun a => Fin.ext (by match a with | ⟨0, _⟩ => rfl | ⟨1, _⟩ => rfl | ⟨2, _⟩ => rfl)

/-- The body's summand before the maximum: `x` with a unit middle axis and `a` with a unit leading axis, each broadcast
    to [128, 256, 256], added. -/
abbrev summand (P0 : Vec Ideal S128x256 .f32) (P1 : Vec Ideal S256x256 .f32) : FVec Ideal S128x256x256 .f32 :=
  addf (broadcastTo S128x256x256 (shapeCast S128x1x256 P0 shapeCasts_S128x256_S128x1x256) broadcasts_S128x1x256_S128x256x256) (broadcastTo S128x256x256 (shapeCast S1x256x256 P1 shapeCasts_S256x256_S1x256x256) broadcasts_S1x256x256_S128x256x256)

/-- At `(p, q, k)` the summand is `x[p, k] + a[q, k]`. -/
theorem summand_apply (P0 : Vec Ideal S128x256 .f32) (P1 : Vec Ideal S256x256 .f32) (p : Fin 128) (q k : Fin 256) :
    summand P0 P1 (ix3 p q k) = P0 (ix2 p k) + P1 (ix2 q k) := by
  unfold summand
  rw [addf_apply, broadcastTo_a1b_acb_apply, shapeCast_ab_a1b_apply, broadcastTo_1cb_acb_apply, shapeCast_ab_1ab_apply]

/-- The block the body leaves, at `(p, q)`: the row maximum of row `p` of the `x` block against row `q` of `a`, plus
    the bias row at `q`. -/
theorem E3_apply (P0 : Vec Ideal S128x256 .f32) (P1 : Vec Ideal S256x256 .f32) (P2 : Vec Ideal S1x256 .f32)
    (p : Fin 128) (q : Fin 256) :
    E3 (F := Ideal) P0 P1 P2 (ix2 p q)
      = rowMax (fun k => P0 (ix2 p k)) (fun k => P1 (ix2 q k)) + P2 (ix2 (0 : Fin 1) q) := by
  have h0 : ix3_0 (ix2 p q) = ix2 p q :=
    funext fun a => Fin.ext (by match a with | ⟨0, _⟩ => rfl | ⟨1, _⟩ => rfl)
  have h1 : ix3_1 (ix2 p q) = ix2 (0 : Fin 1) q :=
    funext fun a => Fin.ext (by match a with | ⟨0, _⟩ => rfl | ⟨1, _⟩ => rfl)
  unfold E3
  rw [h0, h1, Ideal.addf_def]
  refine congrArg (· + P2 (ix2 (0 : Fin 1) q)) ?_
  refine (Ideal.multiReduction_maximumf_single (summand P0 P1) _ reduces_S128x256x256_S128x256 _ _ (ix2 p q)).trans ?_
  unfold rowMax
  refine congrArg (fun f => (Finset.univ : Finset (Fin 256)).fold max (Ideal.ofBits .f32 0xFF800000#32) f) (funext fun k => ?_)
  exact (congrArg (summand P0 P1) (lift_eq p q k)).trans (summand_apply P0 P1 p q k)

/-- The same for the staging buffer after the body, over the three loaded blocks, at any index of the block. -/
theorem block_apply (x0 : Vec Ideal S128x256 .f32) (x1 : Vec Ideal S256x256 .f32) (x2 : Vec Ideal S1x256 .f32)
    (y : S128x256.Idx) :
    out0_3 (F := Ideal) x0 x1 x2 y
      = rowMax (fun k => x0 (ix2 (y 0) k)) (fun k => x1 (ix2 (y 1) k)) + x2 (ix2 (0 : Fin 1) (y 1)) := by
  unfold out0_3
  rw [canon3_eq]
  simp only [View.ld_unit_zero (S := S128x256) hz, View.ld_unit_zero (S := S256x256) hz, View.ld_unit_zero (S := S1x256) hz]
  obtain ⟨p, q, rfl⟩ : ∃ (p : Fin 128) (q : Fin 256), y = ix2 p q := ⟨y 0, y 1, eq_ix2 y⟩
  exact E3_apply x0 x1 x2 p q

/-! ## The arrays the region finds -/

/-- The bias row the region stages is the bias argument recast to one row. -/
theorem V_bias (c : Dev nD) :
    (V m c main_v0 : S1x256.Idx → EReal) = shapeCast S1x256 (m ((c : Thread nD τ).loc main_arg2)) shapeCasts_S256_S1x256 := by
  dsimp only [Gen.V, Gen.hostOps0]; after_results; rfl

/-- The printed index maps, decided over the 32 points: `x`'s row block moves with the result's, `a` and the bias row
    stay at block 0, and the result's column block is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 32 row blocks of the result is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-! ## Block by block, then the whole array -/

/-- The max-plus product with bias of the three argument arrays as launched. -/
abbrev result (c : Dev nD) : S4096x256.Idx → EReal :=
  maxPlus (m ((c : Thread nD τ).loc main_arg0)) (m ((c : Thread nD τ).loc main_arg1)) (m ((c : Thread nD τ).loc main_arg2))

/-- What point `t` writes back is block `t` of `result`. -/
theorem flushed_eq (c : Dev nD) (t : Fin cfg0.N) :
    (dats m 0 c).flushed 3 t = ((cfg0.win 3).blk t).view.read (Elt Ideal) (result m c) := by
  rw [flushed3]
  obtain ⟨e00, e01, e10, e11, e20, e21, e31⟩ := idx_facts t
  funext j
  have hj0 : (j 0).val < 128 := (j 0).isLt
  have hj1 : (j 1).val < 256 := (j 1).isLt
  show out0_3 (F := Ideal) (iblk m c 0 t) (iblk m c 1 t) (iblk m c 2 t) j = result m c (((cfg0.win 3).blk t).view.emb j)
  refine (block_apply (iblk m c 0 t) (iblk m c 1 t) (iblk m c 2 t) j).trans ?_
  refine congrArg₂ (· + ·) (congrArg₂ rowMax (funext fun k => ?_) (funext fun k => ?_)) ?_
  · show V m c main_arg0 (((cfg0.win 0).blk t).view.emb (ix2 (j 0) k)) = _
    rw [V_main_arg0]
    refine congrArg _ (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 256 + 1 * k.val = k.val; omega
  · show V m c main_arg1 (((cfg0.win 1).blk t).view.emb (ix2 (j 1) k)) = _
    rw [V_main_arg1]
    refine congrArg _ (funext fun a => Fin.ext ?_)
    match a with
    | ⟨0, _⟩ => show win0_1.index t (0 : Fin 2) * 256 + 1 * (j 1).val = win0_3.index t (1 : Fin 2) * 256 + 1 * (j 1).val; omega
    | ⟨1, _⟩ => show win0_1.index t (1 : Fin 2) * 256 + 1 * k.val = k.val; omega
  · show V m c main_v0 (((cfg0.win 2).blk t).view.emb (ix2 (0 : Fin 1) (j 1))) = _
    rw [V_bias]
    have e : ((cfg0.win 2).blk t).view.emb (ix2 (0 : Fin 1) (j 1))
        = ix2 (0 : Fin 1) (⟨win0_3.index t (1 : Fin 2) * 256 + 1 * (j 1).val, by omega⟩ : Fin 256) :=
      funext fun a => Fin.ext (by
        match a with
        | ⟨0, _⟩ => show win0_2.index t (0 : Fin 2) * 1 + 1 * 0 = 0; omega
        | ⟨1, _⟩ => show win0_2.index t (1 : Fin 2) * 256 + 1 * (j 1).val = win0_3.index t (1 : Fin 2) * 256 + 1 * (j 1).val; omega)
    rw [e, shapeCast_a_1a_apply]
    refine congrArg _ (funext fun a => Fin.ext ?_)
    match a with
    | ⟨0, _⟩ => rfl

/-- An index of the result is in point `t`'s block iff each coordinate is in the block's range on its axis. -/
theorem mem_blk (t : Fin cfg0.N) (i : S4096x256.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v1).slice (win0_3.rect t)).set ↔ _
  rw [View.set_slice_whole, Rect.mem_set_unit]
  exact Iff.rfl

/-- Every index of the result is in some point's block: row `r` is in block `r / 128`. -/
theorem covered (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 256 ≤ (i 1).val ∧ (i 1).val < win0_3.index t (1 : Fin 2) * 256 + 256; omega

/-- The result array after the run is the max-plus product with bias. -/
theorem final (c : Dev nD) : (dats m 0 c).arrAt 3 cfg0.N = result m c :=
  (dats m 0 c).arrAt_eq_of_cover 3 (result m c) (fun t _ => flushed_eq m c t) covered

/-- The run: every weakly fair execution ends with the result array at the max-plus product with bias of the
    arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.RefValue.lean ====
/-
  The reference's result is the max-plus product with bias.

  The reference broadcasts `x` to [4096, 1, 256] then [4096, 256, 256] and `a` to [1, 256, 256] then
  [4096, 256, 256], adds them, takes the maximum over the last axis from −∞, and adds the bias broadcast over the
  rows. Read at (n, o): the sum at (n, o, k) is `x[n, k] + a[o, k]`, the reduction over one axis is the fold of
  `max` over k from the initial word's value, and the broadcast bias at (n, o) is `bias[o]`.
-/
import proofs.«155381_j13099650252927_1_alg».proof.Proof.Gen.ReferenceIdeal.Read
import proofs.«155381_j13099650252927_1_alg».proof.Proof.MaxPlus
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.MaxPlus

/-- The reduced shape is the source shape with its last axis dropped. -/
theorem reduces_last : S4096x256x256.Reduces [2] S4096x256 := by decide

/-- Inserting the coordinate `k` on the dropped axis of `(n, o)` gives `(n, o, k)`. -/
theorem lift_eq (n : Fin 4096) (o : Fin 256) (k : Fin 256) : reduces_last.lift (ix2 n o) k = ix3 n o k :=
  funext fun a => Fin.ext (by match a with | ⟨0, _⟩ => rfl | ⟨1, _⟩ => rfl | ⟨2, _⟩ => rfl)

/-- The broadcast sum at `(n, o, k)` is `x[n, k] + a[o, k]`. -/
theorem summand_apply (x0 : S4096x256.Idx → EReal) (x1 : S256x256.Idx → EReal) (n : Fin 4096) (o : Fin 256) (k : Fin 256) :
    val_main_v4 (F := Ideal) x0 x1 (ix3 n o k) = x0 (ix2 n k) + x1 (ix2 o k) := by
  rw [val_main_v4_apply, val_main_v2_apply, val_main_v0_apply, val_main_v3_apply, val_main_v1_apply]
  show x0 _ + x1 _ = _
  have e0 : idx_main_v0 (idx_main_v2 (ix3 n o k)) = ix2 n k :=
    funext fun a => Fin.ext (by match a with | ⟨0, _⟩ => rfl | ⟨1, _⟩ => rfl)
  have e1 : idx_main_v1 (idx_main_v3 (ix3 n o k)) = ix2 o k :=
    funext fun a => Fin.ext (by match a with | ⟨0, _⟩ => rfl | ⟨1, _⟩ => rfl)
  rw [e0, e1]

/-- The bias broadcast over the rows reads, at `(n, o)`, `bias[o]`. -/
theorem bias_apply (x2 : S256.Idx → EReal) (i : S4096x256.Idx) :
    val_main_v7 (F := Ideal) x2 i = x2 (ix1 (i 1)) := by
  rw [val_main_v7_apply, val_main_v6_apply]
  exact congrArg x2 (funext fun a => Fin.ext (by match a with | ⟨0, _⟩ => rfl))

/-- The maximum over the last axis, from −∞, at `(n, o)`: the row maximum of row `n` of `x` against row `o` of `a`. -/
theorem rowmax_apply (x0 : S4096x256.Idx → EReal) (x1 : S256x256.Idx → EReal) (n : Fin 4096) (o : Fin 256) :
    val_main_v5 (F := Ideal) x0 x1 (ix2 n o) = rowMax (fun k => x0 (ix2 n k)) (fun k => x1 (ix2 o k)) := by
  unfold val_main_v5
  rw [Host.reduce_eq_fold_single FloatOps.maximumf _ _ reducesTo_S4096x256x256_S4096x256_d2 reduces_last h_S_ (ix2 n o)]
  unfold rowMax
  refine congrArg (fun f => (Finset.univ : Finset (Fin 256)).fold max (Ideal.ofBits .f32 0xFF800000#32) f) (funext fun k => ?_)
  exact (congrArg (val_main_v4 (F := Ideal) x0 x1) (lift_eq n o k)).trans (summand_apply x0 x1 n o k)

/-- The reference's last stage, at the exact values, is the max-plus product with bias of its three arguments. -/
theorem result_eq (x0 : S4096x256.Idx → EReal) (x1 : S256x256.Idx → EReal) (x2 : S256.Idx → EReal) :
    val_main_v8 (F := Ideal) x0 x1 x2 = maxPlus x0 x1 x2 := by
  funext i
  obtain ⟨n, o, rfl⟩ : ∃ (n : Fin 4096) (o : Fin 256), i = ix2 n o := ⟨i 0, i 1, eq_ix2 i⟩
  rw [val_main_v8_apply, bias_apply, rowmax_apply, Ideal.addf_def]
  rfl

end Cert.ReferenceIdeal.RefValue

end
-- ==== Proof.lean ====
/-
  The max-plus kernel against its jnp reference, over the extended reals.

  Both programs compute  y[n, o] = max_k (x[n, k] + a[o, k]) + bias[o]  for x : [4096, 256], a : [256, 256],
  bias : [256], the maximum taken from −∞ (the same f32 word on both sides). The kernel does it 128 rows at a time over
  a grid of 32 points; the reference in one pass over [4096, 256, 256]. At the exact values a maximum over one axis is
  the fold of `max` over that axis's coordinates, whatever the order or the tiling, so both results are ONE function
  of the three argument arrays (Proof/MaxPlus.lean): the kernel's by Proof/KernelValue.lean (each written-back block is
  a row block of that function, and the 32 blocks tile the result), the reference's by Proof/RefValue.lean (its stages
  read at an index). No law of the extended reals beyond that is used, and the finiteness of the inputs is not needed.
  The three frames are the generated ones (the reference's is its run with the result dropped), and the idealization
  rewrote nothing, so `preserves` is `True`.
-/
import proofs.«155381_j13099650252927_1_alg».proof.Defs
import proofs.«155381_j13099650252927_1_alg».proof.Proof.Gen.Kernel
import proofs.«155381_j13099650252927_1_alg».proof.Proof.Gen.Kernel.Skeleton
import proofs.«155381_j13099650252927_1_alg».proof.Proof.Gen.Kernel.Launch
import proofs.«155381_j13099650252927_1_alg».proof.Proof.Gen.Kernel.Points
import proofs.«155381_j13099650252927_1_alg».proof.Proof.Gen.Kernel.Frame
import proofs.«155381_j13099650252927_1_alg».proof.Proof.Gen.KernelIdeal
import proofs.«155381_j13099650252927_1_alg».proof.Proof.Gen.KernelIdeal.Skeleton
import proofs.«155381_j13099650252927_1_alg».proof.Proof.Gen.KernelIdeal.Launch
import proofs.«155381_j13099650252927_1_alg».proof.Proof.Gen.KernelIdeal.Points
import proofs.«155381_j13099650252927_1_alg».proof.Proof.Gen.KernelIdeal.Frame
import proofs.«155381_j13099650252927_1_alg».proof.Proof.Gen.ReferenceIdeal
import proofs.«155381_j13099650252927_1_alg».proof.Proof.KernelIdealValue
import proofs.«155381_j13099650252927_1_alg».proof.Proof.KernelValue
import proofs.«155381_j13099650252927_1_alg».proof.Proof.RefValue
import proofs.«155381_j13099650252927_1_alg».proof.Proof.Gen.ReferenceIdeal.Run
import proofs.«155381_j13099650252927_1_alg».proof.Proof.Gen.ReferenceIdeal.Read
import proofs.«155381_j13099650252927_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's result both end
    at the max-plus product with bias of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
